-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1x512x512 : Shape := ⟨4, ![32, 1, 512, 512]⟩
abbrev S_ : Shape := ⟨0, ![]⟩

class Facts : Prop where
  bcast_S_S32x1x512x512 : S_.BroadcastsInDim S32x1x512x512 (![] : Fin 0 → Fin S32x1x512x512.rank)
  reducesTo_S32x1x512x512_S_d0_1_2_3 : S32x1x512x512.ReducesTo [0, 1, 2, 3] S_
  h_S_ : 0 < S_.numel

variable [Facts]

def fn {F : FTy → Type} [FloatOps F] (main_arg0 : FVec F S32x1x512x512 .f32) (main_arg1 : FVec F S32x1x512x512 .f32) (main_arg2 : FVec F S32x1x512x512 .f32) : IVec S_ 1 :=
  let main_v0 : FVec F S32x1x512x512 .f32 := Host.absf main_arg0
  let main_cst : FVec F S_ .f32 := constant S_ .f32 0x7F800000#32
  let main_v1 : FVec F S32x1x512x512 .f32 := broadcastInDim S32x1x512x512 ![] bcast_S_S32x1x512x512 main_cst
  let main_v2 : IVec S32x1x512x512 1 := cmpf .olt main_v0 main_v1
  let main_c : IVec S_ 1 := constantI S_ 1 1#1
  let main_v3 : IVec S_ 1 := (fun x v => Host.reduce IntOp.andi x v reducesTo_S32x1x512x512_S_d0_1_2_3 h_S_) main_v2 main_c
  let main_v4 : FVec F S32x1x512x512 .f32 := Host.absf main_arg1
  let main_cst_0 : FVec F S_ .f32 := constant S_ .f32 0x7F800000#32
  let main_v5 : FVec F S32x1x512x512 .f32 := broadcastInDim S32x1x512x512 ![] bcast_S_S32x1x512x512 main_cst_0
  let main_v6 : IVec S32x1x512x512 1 := cmpf .olt main_v4 main_v5
  let main_c_1 : IVec S_ 1 := constantI S_ 1 1#1
  let main_v7 : IVec S_ 1 := (fun x v => Host.reduce IntOp.andi x v reducesTo_S32x1x512x512_S_d0_1_2_3 h_S_) main_v6 main_c_1
  let main_v8 : IVec S_ 1 := andi main_v3 main_v7
  let main_v9 : FVec F S32x1x512x512 .f32 := Host.absf main_arg2
  let main_cst_2 : FVec F S_ .f32 := constant S_ .f32 0x7F800000#32
  let main_v10 : FVec F S32x1x512x512 .f32 := broadcastInDim S32x1x512x512 ![] bcast_S_S32x1x512x512 main_cst_2
  let main_v11 : IVec S32x1x512x512 1 := cmpf .olt main_v9 main_v10
  let main_c_3 : IVec S_ 1 := constantI S_ 1 1#1
  let main_v12 : IVec S_ 1 := (fun x v => Host.reduce IntOp.andi x v reducesTo_S32x1x512x512_S_d0_1_2_3 h_S_) main_v11 main_c_3
  let main_v13 : IVec S_ 1 := andi main_v8 main_v12
  main_v13
-- ==== Kernel.lean ====
abbrev S32x1x512x512 : Shape := ⟨4, ![32, 1, 512, 512]⟩
abbrev S1x1 : Shape := ⟨2, ![1, 1]⟩
abbrev S1x1x512x512 : Shape := ⟨4, ![1, 1, 512, 512]⟩
abbrev S512x512 : Shape := ⟨2, ![512, 512]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S32x1x512x512, .f32⟩
  | .hbm, ⟨3, _⟩ => ⟨S1x1, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x1x512x512, .f32⟩
  | .local _ .vmem, ⟨1, _⟩ => ⟨S1x1x512x512, .f32⟩
  | .local _ .vmem, ⟨2, _⟩ => ⟨S1x1x512x512, .f32⟩
  | .local _ .vmem, ⟨3, _⟩ => ⟨S1x1x512x512, .f32⟩
  | .local _ .vmem, ⟨4, _⟩ => ⟨S1x1x512x512, .f32⟩
  | .local _ .vmem, ⟨5, _⟩ => ⟨S1x1x512x512, .f32⟩
  | .local _ .vmem, ⟨6, _⟩ => ⟨S1x1, .f32⟩
  | _, _ => ⟨S32x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  reduces_S512x512_S512 : S512x512.Reduces [1] S512
  shapeCasts_S512_S512x1 : S512.ShapeCasts S512x1
  reduces_S512x1_S1 : S512x1.Reduces [0] S1
  shapeCasts_S1_S1x1 : S1.ShapeCasts S1x1
  broadcasts_S1x1_S512x512 : S1x1.Broadcasts S512x512
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x512.size a ≤ S32x1x512x512.size a
  hwx0_0 : ∀ i : grid0.Coords, EltTy.bits .f32 = 32 ∨ (Rect.block (s := S32x1x512x512) S1x1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S32x1x512x512.size a
  hwx0_1 : ∀ i : grid0.Coords, EltTy.bits .f32 = 32 ∨ (Rect.block (s := S32x1x512x512) S1x1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S32x1x512x512.size a
  hwx0_2 : ∀ i : grid0.Coords, EltTy.bits .f32 = 32 ∨ (Rect.block (s := S32x1x512x512) S1x1x512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_arg0) S1x1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x1x512x512 : Shape := ⟨4, ![32, 1, 512, 512]⟩
abbrev S_ : Shape := ⟨0, ![]⟩
abbrev S32 : Shape := ⟨1, ![32]⟩
abbrev S32x1x1x1 : Shape := ⟨4, ![32, 1, 1, 1]⟩

abbrev nBuf : Space → Nat
  | .hbm => 57
  | .vmem => 0
  | .smem => 0
  | _ => 0

abbrev bufTy : (tb : Table) → Fin (tcTables nBuf tb) → BufTy
  | .hbm, ⟨0, _⟩ => ⟨S32x1x512x512, .f32⟩
  | .hbm, ⟨1, _⟩ => ⟨S32x1x512x512, .f32⟩
  | .hbm, ⟨2, _⟩ => ⟨S32x1x512x512, .f32⟩
  | .hbm, ⟨3, _⟩ => ⟨S32x1x512x512, .f32⟩
  | .hbm, ⟨4, _⟩ => ⟨S32x1x512x512, .f32⟩
  | .hbm, ⟨5, _⟩ => ⟨S_, .f32⟩
  | .hbm, ⟨6, _⟩ => ⟨S32, .f32⟩
  | .hbm, ⟨7, _⟩ => ⟨S_, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S32x1x1x1, .f32⟩
  | .hbm, ⟨12, _⟩ => ⟨S_, .f32⟩
  | .hbm, ⟨13, _⟩ => ⟨S32x1x512x512, .f32⟩
  | .hbm, ⟨14, _⟩ => ⟨S32x1x512x512, .f32⟩
  | .hbm, ⟨15, _⟩ => ⟨S32x1x512x512, .f32⟩
  | .hbm, ⟨16, _⟩ => ⟨S32x1x512x512, .f32⟩
  | .hbm, ⟨17, _⟩ => ⟨S32x1x512x512, .f32⟩
  | .hbm, ⟨18, _⟩ => ⟨S_, .f32⟩
  | .hbm, ⟨19, _⟩ => ⟨S32x1x512x512, .f32⟩
  | .hbm, ⟨20, _⟩ => ⟨S32x1x512x512, .f32⟩
  | .hbm, ⟨21, _⟩ => ⟨S32x1x512x512, .f32⟩
  | .hbm, ⟨22, _⟩ => ⟨S32x1x512x512, .f32⟩
  | .hbm, ⟨23, _⟩ => ⟨S_, .f32⟩
  | .hbm, ⟨24, _⟩ => ⟨S32x1x512x512, .f32⟩
  | .hbm, ⟨25, _⟩ => ⟨S32x1x512x512, .i1⟩
  | .hbm, ⟨26, _⟩ => ⟨S_, .f32⟩
  | .hbm, ⟨27, _⟩ => ⟨S32x1x512x512, .f32⟩
  | .hbm, ⟨28, _⟩ => ⟨S32x1x512x512, .f32⟩
  | .hbm, ⟨29, _⟩ => ⟨S32x1x512x512, .f32⟩
  | .hbm, ⟨30, _⟩ => ⟨S32x1x512x512, .f32⟩
  | .hbm, ⟨31, _⟩ => ⟨S_, .f32⟩
  | .hbm, ⟨32, _⟩ => ⟨S32x1x512x512, .f32⟩
  | .hbm, ⟨33, _⟩ => ⟨S32x1x512x512, .f32⟩
  | .hbm, ⟨34, _⟩ => ⟨S32x1x512x512, .f32⟩
  | .hbm, ⟨35, _⟩ => ⟨S32x1x512x512, .f32⟩
  | .hbm, ⟨36, _⟩ => ⟨S32x1x512x512, .f32⟩
  | .hbm, ⟨37, _⟩ => ⟨S_, .f32⟩
  | .hbm, ⟨38, _⟩ => ⟨S32x1x512x512, .f32⟩
  | .hbm, ⟨39, _⟩ => ⟨S32x1x512x512, .i1⟩
  | .hbm, ⟨40, _⟩ => ⟨S32x1x512x512, .f32⟩
  | .hbm, ⟨41, _⟩ => ⟨S_, .f32⟩
  | .hbm, ⟨42, _⟩ => ⟨S32x1x512x512, .f32⟩
  | .hbm, ⟨43, _⟩ => ⟨S32x1x512x512, .f32⟩
  | .hbm, ⟨44, _⟩ => ⟨S_, .f32⟩
  | .hbm, ⟨45, _⟩ => ⟨S32x1x512x512, .f32⟩
  | .hbm, ⟨46, _⟩ => ⟨S32x1x512x512, .f32⟩
  | .hbm, ⟨47, _⟩ => ⟨S32x1x512x512, .f32⟩
  | .hbm, ⟨48, _⟩ => ⟨S32x1x512x512, .f32⟩
  | .hbm, ⟨49, _⟩ => ⟨S32x1x512x512, .f32⟩
  | .hbm, ⟨50, _⟩ => ⟨S32x1x512x512, .f32⟩
  | .hbm, ⟨51, _⟩ => ⟨S32x1x512x512, .f32⟩
  | .hbm, ⟨52, _⟩ => ⟨S32x1x512x512, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | _, _ => ⟨S32x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩

abbrev nD : Nat := 1
abbrev τ : Topo := Topo.v7x

variable {F : FTy → Type} [FloatOps F]

class Facts₀ : Prop where
  reducesTo_S32x1x512x512_S32_d1_2_3 : S32x1x512x512.ReducesTo [1, 2, 3] S32
  h_S_ : 0 < S_.numel
  bcast_S_S32 : S_.BroadcastsInDim S32 (![] : Fin 0 → Fin S32.rank)
  bcast_S32_S32x1x1x1_0 : S32.BroadcastsInDim S32x1x1x1 (![0] : Fin 1 → Fin S32x1x1x1.rank)
  bcast_S_S32x1x512x512 : S_.BroadcastsInDim S32x1x512x512 (![] : Fin 0 → Fin S32x1x512x512.rank)
  bcast_S32x1x1x1_S32x1x512x512_0_1_2_3 : S32x1x1x1.BroadcastsInDim S32x1x512x512 (![0, 1, 2, 3] : Fin 4 → Fin S32x1x512x512.rank)
  reducesTo_S32x1x512x512_S_d0_1_2_3 : S32x1x512x512.ReducesTo [0, 1, 2, 3] S_

variable [Facts₀]

class Facts : Prop extends Facts₀ where

variable [Facts]
-- ==== Proof.Body.lean ====
/-
  What one grid point's body leaves in the [1, 1] accumulator, as a value of what it read, at any float instance.

  The body loads the three input blocks whole, computes one [1, 1] value from them and from the accumulator's
  contents, and stores it over the accumulator. At the first grid point it has stored the zero block there just before,
  so what it reads back is that zero block; at every later point it reads what the point before left. Either way the
  accumulator ends at `stored` of the blocks and of what was read.
-/
import proofs.«103467_j72885595013509_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The value the body's last store writes, from the three input blocks and the accumulator's contents `acc` it read. -/
abbrev stored (x0 x1 x2 : Vec F S1x1x512x512 .f32) (acc : Vec F S1x1 .f32) : Vec F S1x1 .f32 :=
  k0_pay1 (k0_pay3 x0) (k0_pay5 x2) (k0_pay7 x1 x2) (k0_pay8 x0 x2) (k0_pay9 x0 x1 x2) (k0_pay10 (F := F)) acc

/-- A later grid point: one covering store, whose value is `stored` of the blocks and of the accumulator's previous
    contents `xo3`. -/
theorem out_B (c : Dev nD) (i : grid0.Coords) (a1 : Memref sig .tc .vmem S1x1x512x512 .f32) (h1 : a1.IsWhole)
    (a2 : Memref sig .tc .vmem S1x1x512x512 .f32) (h2 : a2.IsWhole) (a3 : Memref sig .tc .vmem S1x1x512x512 .f32) (h3 : a3.IsWhole)
    (a4 : Memref sig .tc .vmem S1x1 .f32) (h4 : a4.IsWhole) (hc : ¬cond0_0 i)
    (x0 x1 x2 : Vec F S1x1x512x512 .f32) (xo3 : Vec F S1x1 .f32) :
    out0_B_3 c i a1 h1 a2 h2 a3 h3 a4 h4 hc x0 x1 x2 xo3 = stored x0 x1 x2 xo3 := by
  unfold out0_B_3
  rw [View.read_writes_eq_canon _ _ _ (cover0_B_3 c i a1 h1 a2 h2 a3 h3 a4 h4 hc x0 x1 x2 xo3)]
  unfold kernelRun0_B
  dsimp only
  sl_unfold_words
  rw [View.canon_unit_zero hz2]
  simp only [View.readAt_eq_ld, h1.read_unread, h2.read_unread, h3.read_unread, h4.read_unread,
    View.ld_unit_zero (S := S1x1x512x512) hz4, View.ld_unit_zero (S := S1x1) hz2]

/-- The first grid point: the zero block is stored, read back, and then overwritten by `stored` of the blocks and of
    that zero block; the later store covers the earlier one. -/
theorem out_A (c : Dev nD) (i : grid0.Coords) (a1 : Memref sig .tc .vmem S1x1x512x512 .f32) (h1 : a1.IsWhole)
    (a2 : Memref sig .tc .vmem S1x1x512x512 .f32) (h2 : a2.IsWhole) (a3 : Memref sig .tc .vmem S1x1x512x512 .f32) (h3 : a3.IsWhole)
    (a4 : Memref sig .tc .vmem S1x1 .f32) (h4 : a4.IsWhole) (hc : cond0_0 i)
    (x0 x1 x2 : Vec F S1x1x512x512 .f32) :
    out0_A_3 c i a1 h1 a2 h2 a3 h3 a4 h4 hc x0 x1 x2 = stored x0 x1 x2 (k0_pay2 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) hz2, View.readCov_unit_zero (S := S1x1) _ hz2]
  simp only [View.readAt_eq_ld, h1.read_unread, h2.read_unread, h3.read_unread,
    View.ld_unit_zero (S := S1x1x512x512) hz4]

end Cert.KernelIdeal.Body

end
-- ==== Proof.LibPlaneSums.lean ====
/-
  Sums over the index set of a rank-4 array of extents [B, 1, R, L], cut into its B planes of extents [R, L].

  An index (b, 0, r, l) of the array is the pair of its plane number b and its place (r, l) inside the plane
  (`planeEquiv`), so a sum over every index is the sum over the planes of the sums over each plane (`sum_planes`),
  and the indices whose plane number is a given b are exactly that plane (`sum_on_plane`). Read at the ideal values, a
  host reduction with an add body over the axes 1, 2 and 3 — one value per plane — is at b the initial value plus the
  sum over plane b (`hostReduceAdd_planes`). The values need only be a commutative monoid under addition; the
  extended reals are one, so nothing here asks for finiteness.
-/
import Idealize.ShloMosaic.PureOps.Ideal.Laws
import Idealize.ShloMosaic.Lib.ValueIdx

noncomputable section

open scoped BigOperators
open Idealize.ShloMosaic Idealize.ShloMosaic.ValueIdx

namespace Cert.PlaneSums

variable {B R L : ℕ}

/-- The array index of place `y = (r, l)` inside plane `b`: `(b, 0, r, l)`. -/
abbrev inPlane (b : Fin B) (y : (⟨2, ![R, L]⟩ : Shape).Idx) : (⟨4, ![B, 1, R, L]⟩ : Shape).Idx :=
  ix4 b (0 : Fin 1) (y 0) (y 1)

/-- The plane number of an array index: its first coordinate. -/
def planeOf (j : (⟨4, ![B, 1, R, L]⟩ : Shape).Idx) : Fin B := j 0

/-- An index of the array is its plane number and its place inside the plane: the unit axis carries nothing. -/
def planeEquiv : (⟨4, ![B, 1, R, L]⟩ : Shape).Idx ≃ Fin B × (⟨2, ![R, L]⟩ : Shape).Idx where
  toFun j := (j 0, ix2 (j 2) (j 3))
  invFun p := inPlane p.1 p.2
  left_inv j := by
    funext d
    match d with
    | ⟨0, _⟩ => rfl
    | ⟨1, _⟩ => exact Subsingleton.elim (α := Fin 1) _ _
    | ⟨2, _⟩ => rfl
    | ⟨3, _⟩ => rfl
  right_inv p := Prod.ext rfl (eq_ix2 p.2).symm

/-- A sum over every index of the array is the sum, over the planes, of the sums over each plane. -/
theorem sum_planes {M : Type*} [AddCommMonoid M] (f : (⟨4, ![B, 1, R, L]⟩ : Shape).Idx → M) :
    ∑ j, f j = ∑ b : Fin B, ∑ y : (⟨2, ![R, L]⟩ : Shape).Idx, f (inPlane b y) := by
  rw [← Equiv.sum_comp (planeEquiv (B := B) (R := R) (L := L)).symm f, Fintype.sum_prod_type]
  rfl

/-- The indices whose plane number is `b` are plane `b`: a sum over them is the sum over that plane. -/
theorem sum_on_plane {M : Type*} [AddCommMonoid M] (f : (⟨4, ![B, 1, R, L]⟩ : Shape).Idx → M) (b : Fin B) :
    ∑ j ∈ Finset.univ.filter (fun j : (⟨4, ![B, 1, R, L]⟩ : Shape).Idx => planeOf j = b), f j
      = ∑ y : (⟨2, ![R, L]⟩ : Shape).Idx, f (inPlane b y) := by
  rw [Finset.sum_filter, sum_planes, Finset.sum_eq_single b]
  · exact Finset.sum_congr rfl fun y _ => if_pos rfl
  · intro b' _ hb'
    exact Finset.sum_eq_zero fun y _ => if_neg hb'
  · intro h
    exact absurd (Finset.mem_univ b) h

/-- The same for the indices that a map `drop` onto the plane numbers sends to `j`, when `drop` keeps an index's
    first coordinate and forgets the rest (`b` is `j`'s one coordinate, as a plane number). -/
theorem sum_filter_drop {M : Type*} [AddCommMonoid M]
    (drop : (⟨4, ![B, 1, R, L]⟩ : Shape).Idx → (⟨1, ![B]⟩ : Shape).Idx) (hdrop : ∀ i, (drop i 0 : ℕ) = (i 0 : ℕ))
    (f : (⟨4, ![B, 1, R, L]⟩ : Shape).Idx → M) (j : (⟨1, ![B]⟩ : Shape).Idx) (b : Fin B) (hb : (j 0 : ℕ) = b) :
    ∑ i ∈ Finset.univ.filter (fun i => drop i = j), f i = ∑ y : (⟨2, ![R, L]⟩ : Shape).Idx, f (inPlane b y) := by
  rw [← sum_on_plane f b, Finset.sum_filter, Finset.sum_filter]
  refine Finset.sum_congr rfl fun i _ => if_congr ⟨fun h => ?_, fun h => ?_⟩ rfl rfl
  · exact Fin.ext (((hdrop i).symm.trans (congrArg (fun q : (⟨1, ![B]⟩ : Shape).Idx => (q 0 : ℕ)) h)).trans hb)
  · funext d
    match d with
    | ⟨0, _⟩ => exact Fin.ext ((hdrop i).trans ((congrArg Fin.val h).trans hb.symm))

/-- At the ideal values the host's sum over the axes 1, 2 and 3 of a [B, 1, R, L] array is, at plane number `j`, the
    initial value plus the sum of plane `j`'s entries. -/
theorem hostReduceAdd_planes (h : (⟨4, ![B, 1, R, L]⟩ : Shape).ReducesTo [1, 2, 3] ⟨1, ![B]⟩)
    (x : (⟨4, ![B, 1, R, L]⟩ : Shape).Idx → EReal) (init : EReal) (j : (⟨1, ![B]⟩ : Shape).Idx) :
    Ideal.hostReduceAdd h x init j = init + ∑ y : (⟨2, ![R, L]⟩ : Shape).Idx, x (inPlane (j 0) y) := by
  unfold Ideal.hostReduceAdd
  rw [sum_filter_drop h.drop (fun _ => rfl) x j (j 0) rfl]

end Cert.PlaneSums

end
-- ==== Proof.Loss.lean ====
/-
  The loss both programs compute, as one function of the three argument arrays over the extended reals.

  The arrays are [32, 1, 512, 512]: 32 samples, each one plane of 512 x 512 pixels; `P` the probability map, `C` the
  target image, `H` the sampled halftone. Per sample b the reward is minus the mean over the plane of (h - c)^2
  (`reward (planeSq b)`); per pixel the term is minus the log-probability of the sampled value times the advantage,
  the reward less the baseline, the baseline weighing the reward after the pixel is flipped and the reward itself by
  the probability of the flip (`term`). The loss is the sum of all terms over 32. Every literal is kept as the float
  word both programs spell; only two facts about words are used: the zero word is 0, and the word 262144.0 is not 0.
-/
import Idealize.ShloMosaic.PureOps.Ideal.Laws
import Idealize.ShloMosaic.Lib.ValueIdx
import proofs.«103467_j72885595013509_1_alg».proof.Proof.LibPlaneSums

noncomputable section

open scoped BigOperators
open Idealize.ShloMosaic Idealize.ShloMosaic.ValueIdx Cert.PlaneSums

namespace Cert.Coma

/-! ## Two facts about float words -/

/-- The word `0x48800000` is 2^18 = 262144, the number of pixels of a plane. -/
theorem planeCount_val : Ideal.ofBits .f32 0x48800000#32 = ((262144 : ℝ) : EReal) := by
  simp [Ideal.ofBits, Ideal.ieee, -EReal.coe_mul]; norm_num

theorem planeCount_ne_zero : Ideal.ofBits .f32 0x48800000#32 ≠ 0 := by
  rw [planeCount_val]
  exact_mod_cast (by norm_num : (262144 : ℝ) ≠ 0)

/-- Subtracting from the zero word negates, on every extended real. -/
theorem zero_sub_eq_neg (x : EReal) : Ideal.ofBits .f32 0x00000000#32 - x = -x := by
  rw [Ideal.ofBits_zero_f32, zero_sub]

/-- A quotient by a nonzero divisor commutes with negating the dividend, at the infinities too. -/
theorem div_neg_left (s k : EReal) (hk : k ≠ 0) : Ideal.div (-s) k = -(Ideal.div s k) := by
  unfold Ideal.div
  rw [if_neg hk, if_neg hk, EReal.neg_mul]

/-! ## The pixel's term -/

/-- The squared error of the sampled value `h` against the target `c`. -/
def sqOld (c h : EReal) : EReal := (h - c) * (h - c)
/-- The squared error of the flipped value `1 - h`. -/
def sqNew (c h : EReal) : EReal :=
  (Ideal.ofBits .f32 0x3F800000#32 - h - c) * (Ideal.ofBits .f32 0x3F800000#32 - h - c)
/-- The probability of the flipped value: `p` where the sample is 0, else `1 - p`. -/
def flipProb (p h : EReal) : EReal :=
  Scalar.select (Ideal.cmp .oeq h (Ideal.ofBits .f32 0x00000000#32)) p (Ideal.ofBits .f32 0x3F800000#32 - p)
/-- The log-probability of the sampled value: `log p` where the sample is 1, else `log (1 - p + ε)`. -/
def logProb (p h : EReal) : EReal :=
  Scalar.select (Ideal.cmp .oeq h (Ideal.ofBits .f32 0x3F800000#32)) (Ideal.log p)
    (Ideal.log (Ideal.ofBits .f32 0x3F800000#32 - p + Ideal.ofBits .f32 0x322BCC77#32))
/-- A sample's reward from its plane's sum of squared errors `s`: minus the mean. -/
def reward (s : EReal) : EReal := -(Ideal.div s (Ideal.ofBits .f32 0x48800000#32))
/-- The pixel's term at reward `o`: minus the log-probability times the advantage `o - baseline`. -/
def term (o p c h : EReal) : EReal :=
  -(logProb p h) * (o - (flipProb p h * (o + Ideal.div (sqOld c h - sqNew c h) (Ideal.ofBits .f32 0x48800000#32))
    + (Ideal.ofBits .f32 0x3F800000#32 - flipProb p h) * o))

/-- The same term spelt with "zero minus" for both negations and the reward as the quotient of the negated sum: the
    two spellings agree because the zero word is 0 and the plane's pixel count is not. -/
theorem term_of_zero_sub (s p c h : EReal) :
    (Ideal.ofBits .f32 0x00000000#32 - logProb p h)
      * (Ideal.div (Ideal.ofBits .f32 0x00000000#32 - s) (Ideal.ofBits .f32 0x48800000#32)
        - (flipProb p h * (Ideal.div (Ideal.ofBits .f32 0x00000000#32 - s) (Ideal.ofBits .f32 0x48800000#32)
            + Ideal.div (sqOld c h - sqNew c h) (Ideal.ofBits .f32 0x48800000#32))
          + (Ideal.ofBits .f32 0x3F800000#32 - flipProb p h)
            * Ideal.div (Ideal.ofBits .f32 0x00000000#32 - s) (Ideal.ofBits .f32 0x48800000#32)))
      = term (reward s) p c h := by
  rw [zero_sub_eq_neg, zero_sub_eq_neg, div_neg_left _ _ planeCount_ne_zero]
  rfl

/-! ## The loss of the three arrays -/

variable (P C H : (⟨4, ![32, 1, 512, 512]⟩ : Shape).Idx → EReal)

/-- Sample `b`'s sum of squared errors over its plane. -/
def planeSq (b : Fin 32) : EReal :=
  ∑ y : (⟨2, ![512, 512]⟩ : Shape).Idx, sqOld (C (inPlane b y)) (H (inPlane b y))

/-- Sample `b`'s sum of terms over its plane, at its own reward. -/
def planeLoss (b : Fin 32) : EReal :=
  ∑ y : (⟨2, ![512, 512]⟩ : Shape).Idx,
    term (reward (planeSq C H b)) (P (inPlane b y)) (C (inPlane b y)) (H (inPlane b y))

/-- The loss: the sum over the samples of their planes' sums, over 32. -/
def loss : EReal := Ideal.div (∑ b : Fin 32, planeLoss P C H b) (Ideal.ofBits .f32 0x42000000#32)

/-- `planeLoss` as a function of a natural number, zero past the last sample: what a running sum adds at step `n`. -/
def planeLossN (n : ℕ) : EReal := if h : n < 32 then planeLoss P C H ⟨n, h⟩ else 0

theorem planeLossN_of_lt (n : ℕ) (h : n < 32) : planeLossN P C H n = planeLoss P C H ⟨n, h⟩ := dif_pos h

/-- The running sum after all 32 steps is the sum over the samples. -/
theorem sum_range_planeLossN : ∑ n ∈ Finset.range 32, planeLossN P C H n = ∑ b : Fin 32, planeLoss P C H b := by
  rw [← Fin.sum_univ_eq_sum_range]
  exact Finset.sum_congr rfl fun b _ => dif_pos b.isLt

end Cert.Coma

end
-- ==== Proof.LibLaneSums.lean ====
/-
  A two-stage sum of a rank-2 array of extended reals, for any extents R and L.

  `rows_then_lanes_total`: reduce a [R, L] array along its lane axis (a `vector.multi_reduction <add>` over axis 1 into
  [R], from the zero word), view the R row sums as a column [R, 1] (a `vector.shape_cast`), and reduce that column along
  its row axis (a `vector.multi_reduction <add>` over axis 0 into [1]). At the ideal values the result's one entry is the
  sum of all R·L entries of the array: each reduction is the sum over the indices that drop to the given one, the cast
  is a bijection of indices, and every entry of the array lies in exactly one row. This is what a kernel computes when
  it takes `jnp.sum(v, axis=-1, keepdims=True)` and then `jnp.sum(·, axis=0, keepdims=True)`, one trailing axis at a time.
  No finiteness is needed: addition of extended reals is commutative and associative.
-/
import Idealize.ShloMosaic.PureOps.Ideal.Laws

noncomputable section

open Idealize.ShloMosaic

namespace Cert.LaneSums

/-- Summing a [R, L] array along its lanes, viewing the R sums as a column [R, 1], and summing that column, gives at
    the one index of the result the sum of all R·L entries: each entry lies in exactly one row. -/
theorem rows_then_lanes_total {R L : ℕ} (v : FVec Ideal ⟨2, ![R, L]⟩ .f32)
    (h1 : (⟨2, ![R, L]⟩ : Shape).Reduces [1] ⟨1, ![R]⟩) (hc : (⟨1, ![R]⟩ : Shape).ShapeCasts ⟨2, ![R, 1]⟩)
    (h2 : (⟨2, ![R, 1]⟩ : Shape).Reduces [0] ⟨1, ![1]⟩) (hφ hφ' : FKind.Formats .f32)
    (hacc : (0x00000000#32 : BitVec 32) = FKind.add.neutral .f32 hφ) (hacc' : (0x00000000#32 : BitVec 32) = FKind.add.neutral .f32 hφ')
    (j : (⟨1, ![1]⟩ : Shape).Idx) :
    multiReduction .add [0] ⟨1, ![1]⟩
        (shapeCast ⟨2, ![R, 1]⟩ (multiReduction .add [1] ⟨1, ![R]⟩ v 0x00000000#32 h1 hφ hacc) hc) 0x00000000#32 h2 hφ' hacc' j
      = ∑ i, v i := by
  rw [Ideal.multiReduction_add_total _ _ h2 (fun b => by fin_cases b; rfl) hφ' hacc' j]
  show ∑ i, (multiReduction .add [1] ⟨1, ![R]⟩ v 0x00000000#32 h1 hφ hacc) (Shape.reshapeEquiv hc i) = _
  rw [Equiv.sum_comp (Shape.reshapeEquiv hc) (multiReduction .add [1] ⟨1, ![R]⟩ v 0x00000000#32 h1 hφ hacc)]
  show ∑ r, ∑ i ∈ Finset.univ.filter (fun i => h1.drop i = r), v i = _
  exact Finset.sum_fiberwise Finset.univ h1.drop v

end Cert.LaneSums

end
-- ==== Proof.BodyIdeal.lean ====
/-
  One grid point's body over the extended reals: the accumulator gains the plane's sum of pixel terms.

  The body reads three [1, 1, 512, 512] blocks (probability, target, sample) as 512 x 512 planes, sums the squared
  errors of the plane (lanes first, then rows) into the sample's reward, forms each pixel's term from the reward and the
  three pixel values, sums the terms of the plane the same way, and adds that sum to what the accumulator held.
-/
import proofs.«103467_j72885595013509_1_alg».proof.Proof.Body
import proofs.«103467_j72885595013509_1_alg».proof.Proof.Loss
import proofs.«103467_j72885595013509_1_alg».proof.Proof.LibLaneSums
import Idealize.ShloMosaic.Lib.ValueLayout

noncomputable section

open scoped BigOperators
open Idealize.ShloMosaic Idealize.ShloMosaic.TcCoe Idealize.SL.Sem Idealize.ShloMosaic.ValueIdx

namespace Cert.KernelIdeal.Body

open Cert.KernelIdeal Cert.KernelIdeal.Gen Cert.Coma

/-- Pixel `y = (r, l)` of a [1, 1, 512, 512] block: `(0, 0, r, l)`. -/
abbrev px (y : S512x512.Idx) : S1x1x512x512.Idx := ix4 (0 : Fin 1) (0 : Fin 1) (y 0) (y 1)

/-- A block viewed as a 512 x 512 plane reads pixel `y` at `(0, 0, r, l)`. -/
theorem plane_apply (x : Vec Ideal S1x1x512x512 .f32) (y : S512x512.Idx) :
    shapeCast S512x512 x shapeCasts_S1x1x512x512_S512x512 y = x (px y) := by
  unfold shapeCast
  refine congrArg x ?_
  rw [eq_ix2 y]
  exact reshapeEquiv_ix2_11ab _ (y 0) (y 1)

/-- A [1, 1] value spread over the plane is that one value everywhere. -/
theorem spread_apply (v : FVec Ideal S1x1 .f32) (y : S512x512.Idx) (j : S1x1.Idx) :
    broadcastTo S512x512 v broadcasts_S1x1_S512x512 y = v j :=
  broadcastTo_apply v _ y j (fun a => by
    have h1 : S1x1.size a = 1 := by
      match a with
      | ⟨0, _⟩ => rfl
      | ⟨1, _⟩ => rfl
    have hlt : (j a : ℕ) < 1 := lt_of_lt_of_eq (j a).isLt h1
    rw [if_pos h1]
    omega)

/-- The reward the body computes from the target and sample blocks: the negated plane sum of squared errors over the
    pixel count, spelt "zero minus". -/
theorem reward_apply (x1 x2 : Vec Ideal S1x1x512x512 .f32) (j : S1x1.Idx) :
    k0_pay7 (F := Ideal) x1 x2 j
      = Ideal.div (Ideal.ofBits .f32 0x00000000#32 - ∑ y : S512x512.Idx, sqOld (x1 (px y)) (x2 (px y)))
          (Ideal.ofBits .f32 0x48800000#32) := by
  unfold k0_pay7
  dsimp only
  rw [divf_apply, subf_apply]
  refine congrArg₂ Ideal.div (congrArg (fun s => Ideal.ofBits .f32 0x00000000#32 - s) ?_) rfl
  refine (Cert.LaneSums.rows_then_lanes_total (k0_pay6 (F := Ideal) x1 x2) _ _ _ _ _ _ _ _).trans ?_
  refine Finset.sum_congr rfl fun y _ => ?_
  unfold k0_pay6 k0_pay5 k0_pay4
  dsimp only
  rw [mulf_apply, subf_apply, plane_apply, plane_apply]
  rfl

/-- The three blocks as planes, read at a pixel. -/
theorem prob_apply (x0 : Vec Ideal S1x1x512x512 .f32) (y : S512x512.Idx) : k0_pay3 (F := Ideal) x0 y = x0 (px y) :=
  plane_apply x0 y
theorem target_apply (x1 : Vec Ideal S1x1x512x512 .f32) (y : S512x512.Idx) : k0_pay4 (F := Ideal) x1 y = x1 (px y) :=
  plane_apply x1 y
theorem sample_apply (x2 : Vec Ideal S1x1x512x512 .f32) (y : S512x512.Idx) : k0_pay5 (F := Ideal) x2 y = x2 (px y) :=
  plane_apply x2 y

/-- The squared error of the sample at a pixel. -/
theorem sq_apply (x1 x2 : Vec Ideal S1x1x512x512 .f32) (y : S512x512.Idx) :
    k0_pay6 (F := Ideal) x1 x2 y = sqOld (x1 (px y)) (x2 (px y)) := by
  show (k0_pay5 (F := Ideal) x2 y - k0_pay4 (F := Ideal) x1 y) * (k0_pay5 (F := Ideal) x2 y - k0_pay4 (F := Ideal) x1 y) = _
  rw [sample_apply, target_apply]
  rfl

/-- The probability of the flip at a pixel. -/
theorem flip_apply (x0 x2 : Vec Ideal S1x1x512x512 .f32) (y : S512x512.Idx) :
    k0_pay8 (F := Ideal) x0 x2 y = flipProb (x0 (px y)) (x2 (px y)) := by
  show Scalar.select (Ideal.cmp .oeq (k0_pay5 (F := Ideal) x2 y) (Ideal.ofBits .f32 0x00000000#32)) (k0_pay3 (F := Ideal) x0 y)
    (Ideal.ofBits .f32 0x3F800000#32 - k0_pay3 (F := Ideal) x0 y) = _
  rw [sample_apply, prob_apply]
  rfl

/-- The flip's probability times the reward after the flip, at a pixel. -/
theorem weighted_apply (x0 x1 x2 : Vec Ideal S1x1x512x512 .f32) (y : S512x512.Idx) :
    k0_pay9 (F := Ideal) x0 x1 x2 y
      = flipProb (x0 (px y)) (x2 (px y))
        * (Ideal.div (Ideal.ofBits .f32 0x00000000#32 - ∑ y' : S512x512.Idx, sqOld (x1 (px y')) (x2 (px y')))
              (Ideal.ofBits .f32 0x48800000#32)
            + Ideal.div (sqOld (x1 (px y)) (x2 (px y)) - sqNew (x1 (px y)) (x2 (px y))) (Ideal.ofBits .f32 0x48800000#32)) := by
  show k0_pay8 (F := Ideal) x0 x2 y
      * (broadcastTo S512x512 (k0_pay7 (F := Ideal) x1 x2) broadcasts_S1x1_S512x512 y
        + Ideal.div (k0_pay6 (F := Ideal) x1 x2 y
            - (Ideal.ofBits .f32 0x3F800000#32 - k0_pay5 (F := Ideal) x2 y - k0_pay4 (F := Ideal) x1 y)
              * (Ideal.ofBits .f32 0x3F800000#32 - k0_pay5 (F := Ideal) x2 y - k0_pay4 (F := Ideal) x1 y))
          (Ideal.ofBits .f32 0x48800000#32)) = _
  rw [flip_apply, spread_apply _ y (ix2 0 0), reward_apply, sq_apply, sample_apply, target_apply]
  rfl

/-- What the body's last store writes, at the accumulator's one index: what it read there plus the plane's sum of pixel
    terms, each at the plane's own reward. -/
theorem stored_apply (x0 x1 x2 : Vec Ideal S1x1x512x512 .f32) (acc : Vec Ideal S1x1 .f32) (j : S1x1.Idx) :
    stored x0 x1 x2 acc j
      = acc j + ∑ y : S512x512.Idx,
          term (reward (∑ y' : S512x512.Idx, sqOld (x1 (px y')) (x2 (px y')))) (x0 (px y)) (x1 (px y)) (x2 (px y)) := by
  unfold stored k0_pay1
  dsimp only
  rw [addf_apply, shapeCast_self]
  refine congrArg (acc j + ·) ?_
  refine (Cert.LaneSums.rows_then_lanes_total _ _ _ _ _ _ _ _ _).trans (Finset.sum_congr rfl fun y _ => ?_)
  show (Ideal.ofBits .f32 0x00000000#32
        - Scalar.select (Ideal.cmp .oeq (k0_pay5 (F := Ideal) x2 y) (Ideal.ofBits .f32 0x3F800000#32))
            (Ideal.log (k0_pay3 (F := Ideal) x0 y))
            (Ideal.log (Ideal.ofBits .f32 0x3F800000#32 - k0_pay3 (F := Ideal) x0 y + Ideal.ofBits .f32 0x322BCC77#32)))
      * (broadcastTo S512x512 (k0_pay7 (F := Ideal) x1 x2) broadcasts_S1x1_S512x512 y
        - (k0_pay9 (F := Ideal) x0 x1 x2 y
          + (Ideal.ofBits .f32 0x3F800000#32 - k0_pay8 (F := Ideal) x0 x2 y)
            * broadcastTo S512x512 (k0_pay7 (F := Ideal) x1 x2) broadcasts_S1x1_S512x512 y)) = _
  rw [spread_apply _ y (ix2 0 0), reward_apply, weighted_apply, flip_apply, prob_apply, sample_apply]
  exact term_of_zero_sub _ _ _ _

end Cert.KernelIdeal.Body

end
-- ==== Proof.KernelValue.lean ====
/-
  The kernel's result over the extended reals: the loss of its three argument arrays.

  Grid point t reads plane t of each array, so the body adds plane t's sum of pixel terms to the [1, 1] accumulator;
  point 0 first stores the zero word there. After point n the accumulator therefore holds the sum of the first n + 1
  planes' sums (induction on the point), and after the last point the sum over all 32 samples. That one value is
  written back once, after point 31, to the [1, 1] result array, which @main's last lines reshape to a scalar and
  divide by 32.
-/
import proofs.«103467_j72885595013509_1_alg».proof.Proof.BodyIdeal
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen Cert.KernelIdeal.Body Cert.Coma Cert.PlaneSums

variable (m : (ℓ : Loc nD τ sig) → Buf (Elt Ideal) ℓ) (ρ : Dev nD → PrngReg)

/-- The three argument arrays on core `c`: probability map, target image, sampled halftone. -/
abbrev argP (c : Dev nD) : S32x1x512x512.Idx → EReal := m ((c.tc : Thread nD τ).loc main_arg0)
abbrev argC (c : Dev nD) : S32x1x512x512.Idx → EReal := m ((c.tc : Thread nD τ).loc main_arg1)
abbrev argH (c : Dev nD) : S32x1x512x512.Idx → EReal := m ((c.tc : Thread nD τ).loc main_arg2)

/-- Their blocks at grid point `t`. -/
abbrev blkP (c : Dev nD) (t : Fin cfg0.N) : Vec Ideal S1x1x512x512 .f32 := iblk m c 0 t
abbrev blkC (c : Dev nD) (t : Fin cfg0.N) : Vec Ideal S1x1x512x512 .f32 := iblk m c 1 t
abbrev blkH (c : Dev nD) (t : Fin cfg0.N) : Vec Ideal S1x1x512x512 .f32 := iblk m c 2 t

theorem lt32 (t : Fin cfg0.N) : t.val < 32 := lt_of_lt_of_eq t.isLt N_0

/-- Every input window's block index at point `t` is `(t, 0, 0, 0)`: decided over the grid. -/
theorem index0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem index1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)
theorem index2 : ∀ t : Fin cfg0.N, win0_2.index t 0 = t.val ∧ win0_2.index t 1 = 0 ∧ win0_2.index t 2 = 0 ∧ win0_2.index t 3 = 0 :=
  (by decide +kernel : ∀ t : Fin grid0.N, win0_2.index t 0 = t.val ∧ win0_2.index t 1 = 0 ∧ win0_2.index t 2 = 0 ∧ win0_2.index t 3 = 0)

/-- Pixel `y` of the block at point `t` is pixel `y` of plane `t` of the array. -/
theorem blkP_apply (c : Dev nD) (t : Fin cfg0.N) (y : S512x512.Idx) :
    blkP m c t (px y) = argP m c (inPlane ⟨t.val, lt32 t⟩ y) := by
  obtain ⟨h0, h1, h2, h3⟩ := index0 t
  show iblk m c 0 t (px y) = _
  unfold iblk
  rw [View.read_apply]
  show m ((c.tc : Thread nD τ).loc main_arg0) _ = m ((c.tc : Thread nD τ).loc main_arg0) _
  refine congrArg _ (funext fun a => Fin.ext ?_)
  match a with
  | ⟨0, _⟩ => show win0_0.index t 0 * 1 + 1 * 0 = t.val; rw [h0]; omega
  | ⟨1, _⟩ => show win0_0.index t 1 * 1 + 1 * 0 = 0; rw [h1]
  | ⟨2, _⟩ => show win0_0.index t 2 * 512 + 1 * (y 0).val = (y 0).val; rw [h2]; omega
  | ⟨3, _⟩ => show win0_0.index t 3 * 512 + 1 * (y 1).val = (y 1).val; rw [h3]; omega

theorem blkC_apply (c : Dev nD) (t : Fin cfg0.N) (y : S512x512.Idx) :
    blkC m c t (px y) = argC m c (inPlane ⟨t.val, lt32 t⟩ y) := by
  obtain ⟨h0, h1, h2, h3⟩ := index1 t
  show iblk m c 1 t (px y) = _
  unfold iblk
  rw [View.read_apply]
  show m ((c.tc : Thread nD τ).loc main_arg1) _ = m ((c.tc : Thread nD τ).loc main_arg1) _
  refine congrArg _ (funext fun a => Fin.ext ?_)
  match a with
  | ⟨0, _⟩ => show win0_1.index t 0 * 1 + 1 * 0 = t.val; rw [h0]; omega
  | ⟨1, _⟩ => show win0_1.index t 1 * 1 + 1 * 0 = 0; rw [h1]
  | ⟨2, _⟩ => show win0_1.index t 2 * 512 + 1 * (y 0).val = (y 0).val; rw [h2]; omega
  | ⟨3, _⟩ => show win0_1.index t 3 * 512 + 1 * (y 1).val = (y 1).val; rw [h3]; omega

theorem blkH_apply (c : Dev nD) (t : Fin cfg0.N) (y : S512x512.Idx) :
    blkH m c t (px y) = argH m c (inPlane ⟨t.val, lt32 t⟩ y) := by
  obtain ⟨h0, h1, h2, h3⟩ := index2 t
  show iblk m c 2 t (px y) = _
  unfold iblk
  rw [View.read_apply]
  show m ((c.tc : Thread nD τ).loc main_arg2) _ = m ((c.tc : Thread nD τ).loc main_arg2) _
  refine congrArg _ (funext fun a => Fin.ext ?_)
  match a with
  | ⟨0, _⟩ => show win0_2.index t 0 * 1 + 1 * 0 = t.val; rw [h0]; omega
  | ⟨1, _⟩ => show win0_2.index t 1 * 1 + 1 * 0 = 0; rw [h1]
  | ⟨2, _⟩ => show win0_2.index t 2 * 512 + 1 * (y 0).val = (y 0).val; rw [h2]; omega
  | ⟨3, _⟩ => show win0_2.index t 3 * 512 + 1 * (y 1).val = (y 1).val; rw [h3]; omega

/-- The sum of pixel terms over the blocks at point `t` is plane `t`'s sum. -/
theorem planeLoss_of_blocks (c : Dev nD) (t : Fin cfg0.N) :
    (∑ y : S512x512.Idx,
        term (reward (∑ y' : S512x512.Idx, sqOld (blkC m c t (px y')) (blkH m c t (px y'))))
          (blkP m c t (px y)) (blkC m c t (px y)) (blkH m c t (px y)))
      = planeLossN (argP m c) (argC m c) (argH m c) t.val := by
  rw [planeLossN_of_lt _ _ _ _ (lt32 t)]
  simp only [blkP_apply, blkC_apply, blkH_apply]
  rfl

/-- After point `n` the accumulator's one entry holds the sum of the first `n + 1` planes' sums: point 0 stores the zero
    word and adds plane 0's sum to it; every later point adds its plane's sum to what the point before left. -/
theorem outsAt_eq (c : Dev nD) : ∀ (n : ℕ) (h : n < cfg0.N) (j : S1x1.Idx),
    outsAt0 m c n h j = ∑ k ∈ Finset.range (n + 1), planeLossN (argP m c) (argC m c) (argH m c) k
  | 0, h, j => by
    refine (congrFun (outsAt0_A m c ⟨0, h⟩ rfl) j).trans ?_
    refine (congrFun (out_A (F := Ideal) c (grid0.coords ⟨0, h⟩) (ms0_0 ⟨0, h⟩) (hs0_0 ⟨0, h⟩) (ms0_1 ⟨0, h⟩) (hs0_1 ⟨0, h⟩)
      (ms0_2 ⟨0, h⟩) (hs0_2 ⟨0, h⟩) (ms0_3 ⟨0, h⟩) (hs0_3 ⟨0, h⟩) ((hcond0_0 ⟨0, h⟩).mpr rfl)
      (blkP m c ⟨0, h⟩) (blkC m c ⟨0, h⟩) (blkH m c ⟨0, h⟩)) j).trans ?_
    refine (stored_apply (blkP m c ⟨0, h⟩) (blkC m c ⟨0, h⟩) (blkH m c ⟨0, h⟩) (k0_pay2 (F := Ideal)) j).trans ?_
    rw [planeLoss_of_blocks m c ⟨0, h⟩, Finset.sum_range_one]
    show Ideal.ofBits .f32 0x00000000#32 + _ = _
    rw [Ideal.ofBits_zero_f32, zero_add]
  | n + 1, h, j => by
    have hN : cfg0.N = 32 := N_0
    have hB : ¬(⟨n + 1, h⟩ : Fin cfg0.N).val % 32 = 0 := by dsimp only; omega
    refine (congrFun (outsAt0_B m c ⟨n + 1, h⟩ hB) j).trans ?_
    refine (congrFun (out_B (F := Ideal) c (grid0.coords ⟨n + 1, h⟩) (ms0_0 ⟨n + 1, h⟩) (hs0_0 ⟨n + 1, h⟩) (ms0_1 ⟨n + 1, h⟩)
      (hs0_1 ⟨n + 1, h⟩) (ms0_2 ⟨n + 1, h⟩) (hs0_2 ⟨n + 1, h⟩) (ms0_3 ⟨n + 1, h⟩) (hs0_3 ⟨n + 1, h⟩)
      (fun hh => hB ((hcond0_0 ⟨n + 1, h⟩).mp hh)) (blkP m c ⟨n + 1, h⟩) (blkC m c ⟨n + 1, h⟩) (blkH m c ⟨n + 1, h⟩)
      (outsAt0 m c n (Nat.lt_of_succ_lt h))) j).trans ?_
    refine (stored_apply (blkP m c ⟨n + 1, h⟩) (blkC m c ⟨n + 1, h⟩) (blkH m c ⟨n + 1, h⟩)
      (outsAt0 m c n (Nat.lt_of_succ_lt h)) j).trans ?_
    rw [outsAt_eq c n (Nat.lt_of_succ_lt h) j, planeLoss_of_blocks m c ⟨n + 1, h⟩, Finset.sum_range_succ _ (n + 1)]

/-- The sum over all 32 samples of their planes' sums. -/
abbrev total (c : Dev nD) : EReal := ∑ b : Fin 32, planeLoss (argP m c) (argC m c) (argH m c) b

/-- The [1, 1] result array's final contents: that one value. -/
abbrev result (c : Dev nD) : Buf (Elt Ideal) ((c : Thread nD τ).loc main_v0) := fun _ => total m c

/-- The one write-back, after point 31, writes the accumulator as the last point left it. -/
theorem flushed_eq (c : Dev nD) (t : Fin cfg0.N) (hf : (cfg0.win 3).flush t = true) :
    (dats m 0 c).flushed 3 t = ((cfg0.win 3).blk t).view.read (Elt Ideal) (result m c) := by
  have h31 : t.val = 31 := by
    have := (flush0_3 t).mp hf
    have := lt32 t
    omega
  show (cfg0.win 3).cut (grid0.coords t) ((dats m 0 c).after 3 t) = _
  rw [after0_3]
  funext y
  rw [View.read_apply]
  show outsAt0 m c t.val t.isLt _ = total m c
  rw [outsAt_eq, h31]
  exact sum_range_planeLossN _ _ _

/-- The last grid point. -/
def lastPt : Fin cfg0.N := ⟨31, by rw [show cfg0.N = 32 from N_0]; decide⟩

/-- So the result array ends holding the total: the last point's block is the whole [1, 1] array. -/
theorem final_o (c : Dev nD) : (dats m 0 c).arrAt 3 cfg0.N = result m c :=
  (dats m 0 c).arrAt_eq_of_cover 3 (result m c) (flushed_eq m c) fun i =>
    ⟨lastPt, (flush0_3 lastPt).mpr rfl, by
      show i ∈ ((View.whole main_v0).slice (win0_3.rect lastPt)).set
      rw [View.set_slice_whole, Rect.mem_set_unit]
      intro a
      have h0 : (i 0 : Nat) < 1 := (i 0).isLt
      have h1 : (i 1 : Nat) < 1 := (i 1).isLt
      match a with
      | ⟨0, _⟩ =>
        show win0_3.index lastPt 0 * win0_3.size 0 ≤ (i 0 : Nat)
          ∧ (i 0 : Nat) < win0_3.index lastPt 0 * win0_3.size 0 + win0_3.xsize (grid0.coords lastPt) 0
        rw [show win0_3.index lastPt 0 * win0_3.size 0 = 0 from by decide +kernel,
          show win0_3.xsize (grid0.coords lastPt) 0 = 1 from by decide +kernel]
        omega
      | ⟨1, _⟩ =>
        show win0_3.index lastPt 1 * win0_3.size 1 ≤ (i 1 : Nat)
          ∧ (i 1 : Nat) < win0_3.index lastPt 1 * win0_3.size 1 + win0_3.xsize (grid0.coords lastPt) 1
        rw [show win0_3.index lastPt 1 * win0_3.size 1 = 0 from by decide +kernel,
          show win0_3.xsize (grid0.coords lastPt) 1 = 1 from by decide +kernel]
        omega⟩

/-- @main's last lines, on the final result array: the scalar they leave is the loss. -/
theorem tail_eq (c : Dev nD) :
    Pipeline.afterTail₀ cfgs (dats m) 0 (V0 m) [hostOps1] c main_v2
      = fun _ => loss (argP m c) (argC m c) (argH m c) := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v0)
      = result m c :=
    (Pipeline.withArrays_arr spec0 launch0.win.arr_inj c _ _ 3).trans (final_o m c)
  rw [e]
  funext i
  rfl

/-- The run, read: @main's result is the loss of the argument arrays, which end unchanged. -/
theorem run : θ_run defs (onTc (τ := τ) (main (F := Ideal))) ⟨m, fun _ => 0, ρ⟩ fun r => ∀ c : Dev nD,
      r.2.mem ((c.tc : Thread nD τ).loc main_v2) = (fun _ => loss (argP m c) (argC m c) (argH m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.Value

end
-- ==== Proof.RefLoss.lean ====
/-
  The reference computes the loss: its result, read one operation at a time, is `Cert.Coma.loss` of its arguments.

  The reference takes each sample's mean squared error by one sum over the plane's three trailing axes, negates it
  into the reward, spreads the 32 rewards back over the planes, forms every pixel's term, and sums all 32 x 512 x 512
  terms at once before dividing by 32. Cut into planes, that last sum is the sum over the samples of the planes' sums.
-/
import proofs.«103467_j72885595013509_1_alg».proof.Proof.Gen.ReferenceIdeal.Read
import proofs.«103467_j72885595013509_1_alg».proof.Proof.Loss

noncomputable section

open scoped BigOperators
open Idealize.ShloMosaic Idealize.ShloMosaic.ValueIdx

namespace Cert.ReferenceIdeal.RefLoss

open Cert.ReferenceIdeal Cert.ReferenceIdeal.Read Cert.Coma Cert.PlaneSums

variable (P C H : (⟨S32x1x512x512, .f32⟩ : BufTy).Contents (Elt Ideal))

/-- Sample `j`'s reward: minus the plane's sum of squared errors over the pixel count (the sum starts from the zero
    word, which adds nothing). -/
theorem reward_apply (j : S32.Idx) : val_main_v5 (F := Ideal) C H j = reward (planeSq C H (j 0)) := by
  rw [val_main_v5_apply, val_main_v4_apply, val_main_v3_apply, val_main_cst_0_apply]
  unfold val_main_v2
  simp only [Host.reduceAdd, Ideal.hostReduceAdd_def]
  rw [hostReduceAdd_planes, val_main_cst_apply]
  simp only [Ideal.hostNegf_def, Ideal.negf_def, Ideal.hostDivf_def, Ideal.ofBits_def, Ideal.ofBits_zero_f32, zero_add]
  rfl

/-- The rewards spread back over the array: every pixel of plane `i 0` sees that plane's reward (three spreadings of the
    same column, one per use). -/
theorem spread14_apply (i : S32x1x512x512.Idx) : val_main_v14 (F := Ideal) C H i = reward (planeSq C H (i 0)) := by
  rw [val_main_v14_apply, val_main_v6_apply, reward_apply]
  rfl
theorem spread24_apply (i : S32x1x512x512.Idx) : val_main_v24 (F := Ideal) C H i = reward (planeSq C H (i 0)) := by
  rw [val_main_v24_apply, val_main_v6_apply, reward_apply]
  rfl
theorem spread36_apply (i : S32x1x512x512.Idx) : val_main_v36 (F := Ideal) C H i = reward (planeSq C H (i 0)) := by
  rw [val_main_v36_apply, val_main_v6_apply, reward_apply]
  rfl

/-- Every pixel's product is the pixel's term at its plane's reward. -/
theorem term_apply (i : S32x1x512x512.Idx) :
    val_main_v39 (F := Ideal) P C H i = term (reward (planeSq C H (i 0))) (P i) (C i) (H i) := by
  simp only [val_main_v39_apply, val_main_v38_apply, val_main_v37_apply, spread36_apply, val_main_v35_apply,
    val_main_v34_apply, val_main_v33_apply, val_main_v32_apply, val_main_cst_8_apply, val_main_v31_apply,
    val_main_v30_apply, val_main_cst_7_apply, val_main_v29_apply, val_main_v28_apply, val_main_v27_apply,
    val_main_cst_6_apply, val_main_v26_apply, val_main_v25_apply, spread24_apply, val_main_v23_apply,
    val_main_v22_apply, val_main_cst_5_apply, val_main_v21_apply, val_main_v20_apply, val_main_v19_apply,
    val_main_v18_apply, val_main_cst_4_apply, val_main_v17_apply, val_main_v16_apply, val_main_cst_3_apply,
    val_main_v15_apply, spread14_apply, val_main_v13_apply, val_main_v12_apply, val_main_cst_2_apply,
    val_main_v11_apply, val_main_v10_apply, val_main_v9_apply, val_main_v8_apply, val_main_v7_apply,
    val_main_cst_1_apply, val_main_v1_apply, val_main_v0_apply,
    Ideal.hostNegf_def, Ideal.negf_def, Ideal.hostDivf_def, Ideal.ofBits_def, Ideal.mulf_def, Ideal.subf_def,
    Ideal.addf_def, Ideal.hostUnary_log_def, Ideal.cmpf_def]
  rfl

/-- The reference's result is the loss. -/
theorem result_eq (i : S_.Idx) : val_main_v41 (F := Ideal) P C H i = loss P C H := by
  rw [val_main_v41_apply, val_main_v40_apply, val_main_cst_9_apply, val_main_cst_10_apply]
  simp only [Ideal.hostDivf_def, Ideal.ofBits_def, Ideal.ofBits_zero_f32, zero_add]
  unfold loss
  rw [sum_planes]
  refine congrArg (fun s => Ideal.div s _) (Finset.sum_congr rfl fun b _ => Finset.sum_congr rfl fun y _ => ?_)
  rw [term_apply]

end Cert.ReferenceIdeal.RefLoss

end
-- ==== Proof.lean ====
/-
  The kernel against its reference: a per-pixel counterfactual loss over 32 samples of 512 x 512 pixels.

  Both programs compute one scalar from three [32, 1, 512, 512] arrays (a probability map, a target image, a sampled
  halftone): per sample the reward, minus the mean squared error of the sample against the target; per pixel minus the
  log-probability of the sampled value times the advantage of the reward over a baseline that weighs the reward after
  flipping the pixel; the loss is the sum of all these terms over 32 (`Cert.Coma.loss`, Proof/Loss.lean).

  The kernel walks the samples one grid point each, sums a plane lanes first and then rows, and keeps a running sum
  in a [1, 1] accumulator that point 0 resets; the reference sums each plane over its three trailing axes at once and
  all terms in a single sum. Over the extended reals addition is commutative and associative, so every grouping of
  the sums gives the same value and no finiteness of the inputs is needed. Two spellings differ: the kernel writes
  both negations as "zero minus" and negates the plane's sum before dividing by the pixel count where the reference
  divides first; they agree because the zero word is 0 and 262144 is not (Proof/Loss.lean `term_of_zero_sub`).

  Modules: Loss (the function), LibPlaneSums and LibLaneSums (regrouping sums), Body and BodyIdeal (one grid point's
  body as a value), KernelValue (the running sum over the grid, the write-back, @main's last lines), RefLoss (the
  reference read operation by operation).
-/
import proofs.«103467_j72885595013509_1_alg».proof.Defs
import proofs.«103467_j72885595013509_1_alg».proof.Proof.Gen.Kernel
import proofs.«103467_j72885595013509_1_alg».proof.Proof.Gen.Kernel.Skeleton
import proofs.«103467_j72885595013509_1_alg».proof.Proof.Gen.Kernel.Launch
import proofs.«103467_j72885595013509_1_alg».proof.Proof.Gen.Kernel.Points
import proofs.«103467_j72885595013509_1_alg».proof.Proof.Gen.Kernel.Frame
import proofs.«103467_j72885595013509_1_alg».proof.Proof.Gen.KernelIdeal
import proofs.«103467_j72885595013509_1_alg».proof.Proof.Gen.KernelIdeal.Skeleton
import proofs.«103467_j72885595013509_1_alg».proof.Proof.Gen.KernelIdeal.Launch
import proofs.«103467_j72885595013509_1_alg».proof.Proof.Gen.KernelIdeal.Points
import proofs.«103467_j72885595013509_1_alg».proof.Proof.Gen.KernelIdeal.Frame
import proofs.«103467_j72885595013509_1_alg».proof.Proof.Gen.ReferenceIdeal
import proofs.«103467_j72885595013509_1_alg».proof.Proof.Gen.Pre_finite_inputs
import proofs.«103467_j72885595013509_1_alg».proof.Proof.Gen.ReferenceIdeal.Run
import proofs.«103467_j72885595013509_1_alg».proof.Proof.Gen.ReferenceIdeal.Read
import proofs.«103467_j72885595013509_1_alg».proof.Proof.KernelValue
import proofs.«103467_j72885595013509_1_alg».proof.Proof.RefLoss
import Idealize.ShloMosaic.Adequacy
import Idealize.ShloMosaic.Init

noncomputable section

namespace Cert.Proof

open Idealize.ShloMosaic Idealize.SL.Sem

/-- The three frames: the two kernels' are the generated frame runs; the reference's is its generated run with the
    result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Over the extended reals the kernel's scalar and the reference's are both the loss of the (agreeing) argument
    arrays. -/
theorem algebraic : Cert.algebraic_KernelIdeal_ReferenceIdeal := by
  intro m ρ m' ρ' _ hagree
  refine ⟨fun c => fun _ => Cert.Coma.loss (Cert.KernelIdeal.Value.argP m c) (Cert.KernelIdeal.Value.argC m c)
    (Cert.KernelIdeal.Value.argH m c), Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, (hagree c).1, (hagree c).2.1, (hagree c).2.2]
  funext i
  exact Cert.ReferenceIdeal.RefLoss.result_eq _ _ _ i

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
